-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 106
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x40, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x40, .f32⟩
  | .hbm, ⟨95, _⟩ => ⟨S1700000x1, .f32⟩
  | .hbm, ⟨96, _⟩ => ⟨S1700000x40, .f32⟩
  | .hbm, ⟨97, _⟩ => ⟨S1700000x40, .f32⟩
  | .hbm, ⟨98, _⟩ => ⟨S_, .f32⟩
  | .hbm, ⟨99, _⟩ => ⟨S100000x40, .f32⟩
  | .hbm, ⟨100, _⟩ => ⟨S1700000x1, .i32⟩
  | .hbm, ⟨101, _⟩ => ⟨S100000x40, .f32⟩
  | .hbm, ⟨102, _⟩ => ⟨S1x40, .f32⟩
  | .hbm, ⟨103, _⟩ => ⟨S100000x40, .f32⟩
  | .hbm, ⟨104, _⟩ => ⟨S100000x40, .f32⟩
  | .hbm, ⟨105, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x40, .f32⟩
  | 115 => ⟨S1700000x1, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Chain.lean ====
/-
  The host side of the two-layer graph convolution, as functions of the values it is applied to, for any float family.

  Both programs run the same host operations around their dense products. From the edge list `ei : i32[2, E]` (E = 1,600,000):
  `rowFull` / `colFull` are the sources / destinations followed by every node once (the self loops), N = 100,000 nodes;
  `wrap` is the index normalisation of a gather (a negative index counted from the end); `deg` scatter-adds a one per edge
  into its destination, `dis` is deg^(-1/2) where deg > 0 and 0 elsewhere; `norm` is, per edge, dis at the source times
  dis at the destination; `aggA` / `aggB` gather the rows of a node-feature array `h` at the sources, scale each by its
  edge's `norm`, scatter-add them into the destinations and add the bias (128 and 40 features wide).
  `mm0` and `mm1` are the two dense products as whole-array functions ([N,128]·[128,128], and relu first then [N,128]·[128,40]);
  `lsm` is the row-wise log-softmax as the host spells it: the row maximum (from -inf) subtracted, then the log of the row's sum
  of exponentials subtracted. `gcn` composes them: what both programs compute from their six arguments.
-/
import proofs.«156913_j83777632075847_1_alg».proof.Proof.Gen.KernelIdeal
import proofs.«156913_j83777632075847_1_alg».proof.Proof.Gen.ReferenceIdeal

noncomputable section

namespace Cert.Gcn

open Idealize.ShloMosaic
open Cert.KernelIdeal Cert.KernelIdeal.Facts₀

variable {F : FTy → Type} [FloatOps F]

/-- The edge sources, then every node (the self loops). -/
def rowFull (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge destinations, then every node. -/
def colFull (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A gather's index normalisation: a negative index has the node count added. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The in-degree with self loops: a one scatter-added per entry of `col`. -/
def deg (col : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- deg^(-1/2) where the degree is positive, 0 elsewhere. -/
def dis (col : IVec S1700000 32) : FVec F S100000 .f32 :=
  select (cmpf (F := F) .ogt (deg col) (broadcastInDim S100000 ![] bcast_S_S100000 (constant S_ .f32 0x00000000#32))) (Host.rsqrt (deg col)) (broadcastInDim S100000 ![] bcast_S_S100000 (id (constant S_ .f32 0x00000000#32)))

/-- Per edge: `d` at its source times `d` at its destination. -/
def norm (row col : IVec S1700000 32) (d : FVec F S100000 .f32) : FVec F S1700000 .f32 :=
  mulf (Host.gather gather_S100000_S1700000x1_S1700000_n_0_n_n_0_1_1 d (broadcastInDim S1700000x1 ![0] bcast_S1700000_S1700000x1_0 (wrap row))) (Host.gather gather_S100000_S1700000x1_S1700000_n_0_n_n_0_1_1 d (broadcastInDim S1700000x1 ![0] bcast_S1700000_S1700000x1_0 (wrap col)))

/-- The first layer's aggregation: rows of `h` gathered at the sources, scaled per edge, scatter-added at the destinations, plus the bias. -/
def aggA (h : FVec F S100000x128 .f32) (row col : IVec S1700000 32) (d : FVec F S100000 .f32) (b : FVec F S128 .f32) : FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (broadcastInDim S1700000x1 ![0] bcast_S1700000_S1700000x1_0 (wrap row))) (broadcastInDim S1700000x128 ![0, 1] bcast_S1700000x1_S1700000x128_0_1 (broadcastInDim S1700000x1 ![0] bcast_S1700000_S1700000x1_0 (norm row col d))))) (broadcastInDim S100000x128 ![0, 1] bcast_S1x128_S100000x128_0_1 (broadcastInDim S1x128 ![1] bcast_S128_S1x128_1 b))

/-- The second layer's aggregation, 40 features wide. -/
def aggB (h : FVec F S100000x40 .f32) (row col : IVec S1700000 32) (d : FVec F S100000 .f32) (b : FVec F S40 .f32) : FVec F S100000x40 .f32 :=
  addf (Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 col) (mulf (Host.gather gather_S100000x40_S1700000x1_S1700000x40_1_0_n_n_0_1_140 h (broadcastInDim S1700000x1 ![0] bcast_S1700000_S1700000x1_0 (wrap row))) (broadcastInDim S1700000x40 ![0, 1] bcast_S1700000x1_S1700000x40_0_1 (broadcastInDim S1700000x1 ![0] bcast_S1700000_S1700000x1_0 (norm row col d))))) (broadcastInDim S100000x40 ![0, 1] bcast_S1x40_S100000x40_0_1 (broadcastInDim S1x40 ![1] bcast_S40_S1x40_1 b))

/-- The first dense product, whole: x · W1. -/
def mm0 (x : FVec F S100000x128 .f32) (w : FVec F S128x128 .f32) : FVec F S100000x128 .f32 :=
  Host.dotGeneral (DotDims.plain 100000 128 128) none x w

/-- The second dense product, whole: relu(a) · W2. -/
def mm1 (a : FVec F S100000x128 .f32) (w : FVec F S128x40 .f32) : FVec F S100000x40 .f32 :=
  Host.dotGeneral (DotDims.plain 100000 128 40) none (maximumf a (broadcastInDim S100000x128 ![] bcast_S_S100000x128 (constant S_ .f32 0x00000000#32))) w

/-- The row maximum from -inf, kept as a column and spread over the row. -/
def lsmMax (a : FVec F S100000x40 .f32) : FVec F S100000x40 .f32 :=
  broadcastInDim S100000x40 ![0, 1] Cert.ReferenceIdeal.Facts₀.bcast_S100000x1_S100000x40_0_1 (broadcastInDim Cert.ReferenceIdeal.S100000x1 ![0] Cert.ReferenceIdeal.Facts₀.bcast_S100000_S100000x1_0 (maximumf (broadcastInDim S100000 ![] bcast_S_S100000 (constant S_ .f32 0xFF800000#32)) (Host.reduce FloatOps.maximumf a (constant S_ .f32 0xFF800000#32) Cert.ReferenceIdeal.Facts₀.reducesTo_S100000x40_S100000_d1 Cert.ReferenceIdeal.Facts₀.h_S_)))

/-- The row-wise log-softmax as the host spells it. -/
def lsm (a : FVec F S100000x40 .f32) : FVec F S100000x40 .f32 :=
  subf (subf a (lsmMax a)) (broadcastInDim S100000x40 ![0, 1] Cert.ReferenceIdeal.Facts₀.bcast_S100000x1_S100000x40_0_1 (Host.log (broadcastInDim Cert.ReferenceIdeal.S100000x1 ![0] Cert.ReferenceIdeal.Facts₀.bcast_S100000_S100000x1_0 (Host.reduceAdd (Host.exp (subf a (lsmMax a))) (constant S_ .f32 0x00000000#32) Cert.ReferenceIdeal.Facts₀.reducesTo_S100000x40_S100000_d1 Cert.ReferenceIdeal.Facts₀.h_S_))))

/-- The whole network: two graph convolutions with a relu between them, then the row-wise log-softmax. -/
def gcn (x : FVec F S100000x128 .f32) (ei : IVec S2x1600000 32) (w1 : FVec F S128x128 .f32) (b1 : FVec F S128 .f32)
    (w2 : FVec F S128x40 .f32) (b2 : FVec F S40 .f32) : FVec F S100000x40 .f32 :=
  lsm (aggB (mm1 (aggA (mm0 x w1) (rowFull ei) (colFull ei) (dis (colFull ei)) b1) w2) (rowFull ei) (colFull ei) (dis (colFull ei)) b2)

end Cert.Gcn

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.SpecMm.lean ====
/-
  The two dense products read at an output entry, at the ideal values: the whole-array products of `Chain.lean` and the
  kernels' block payloads are the same sum over the 128 contracted positions. A change of float format is the identity
  there, so the kernels' bf16 operands are the f32 ones; the second kernel's relu is the entry's maximum with the zero
  constant, on the block as on the whole array.
-/
import proofs.«156913_j83777632075847_1_alg».proof.Proof.Chain
import proofs.«156913_j83777632075847_1_alg».proof.Proof.LibPlainDot
import proofs.«156913_j83777632075847_1_alg».proof.Proof.Gen.KernelIdeal.Skeleton
import Idealize.ShloMosaic.Lib.ValueIdx
import Idealize.ShloMosaic.Lib.Pipeline.Value

noncomputable section

namespace Cert.Gcn

open Idealize.ShloMosaic Idealize.ShloMosaic.ValueIdx
open Cert.KernelIdeal Cert.KernelIdeal.Gen

/-- (x · W1)(r, q) = ∑ₖ x(r, k) · W1(k, q). -/
theorem mm0_apply (x : FVec Ideal S100000x128 .f32) (w : FVec Ideal S128x128 .f32) (r : Fin 100000) (q : Fin 128) :
    mm0 x w (ix2 r q) = ∑ k : Fin 128, x (ix2 r k) * w (ix2 k q) := by
  unfold mm0
  exact Cert.PlainDot.dotGeneral_apply _ rfl none x w r q

/-- The first kernel's stored block at (p, q): the same sum over the block's row p. -/
theorem k0_pay1_apply (xb : Vec Ideal S5000x128 .f32) (wb : Vec Ideal S128x128 .f32) (p : Fin 5000) (q : Fin 128) :
    k0_pay1 xb wb (ix2 p q) = ∑ k : Fin 128, xb (ix2 p k) * wb (ix2 k q) := by
  unfold k0_pay1
  exact Cert.PlainDot.matmul_zero_apply dot_S5000x128_S128x128_S5000x128_1_0_0_1_n_n rfl none _ _ p q

/-- (relu(a) · W2)(r, q) = ∑ₖ max(a(r, k), 0) · W2(k, q). -/
theorem mm1_apply (a : FVec Ideal S100000x128 .f32) (w : FVec Ideal S128x40 .f32) (r : Fin 100000) (q : Fin 40) :
    mm1 a w (ix2 r q) = ∑ k : Fin 128, max (a (ix2 r k)) (Ideal.ofBits .f32 0x00000000#32) * w (ix2 k q) := by
  unfold mm1
  exact Cert.PlainDot.dotGeneral_apply _ rfl none _ w r q

/-- The second kernel's stored block at (p, q). -/
theorem k1_pay1_apply (ab : Vec Ideal S5000x128 .f32) (wb : Vec Ideal S128x40 .f32) (p : Fin 5000) (q : Fin 40) :
    k1_pay1 ab wb (ix2 p q) = ∑ k : Fin 128, max (ab (ix2 p k)) (Ideal.ofBits .f32 0x00000000#32) * wb (ix2 k q) := by
  unfold k1_pay1
  refine (Cert.PlainDot.matmul_zero_apply dot_S5000x128_S128x40_S5000x40_1_0_0_1_n_n rfl none _ _ p q).trans ?_
  refine Finset.sum_congr rfl fun k _ => ?_
  show max (shapeCast S5000x128 ab shapeCasts_S5000x128_S5000x128 (ix2 p k)) _ * _ = _
  rw [shapeCast_self]
  rfl

end Cert.Gcn

end
-- ==== Proof.Region0.lean ====
/-
  The first dense product, from row blocks to the whole array.

  The grid has 20 points. At point t the kernel reads rows 5000·t … 5000·t + 4999 of x (all 128 columns) and the whole of W1,
  and stores into the same rows of its [100000, 128] output the block product: entry (p, q) of the stored block is
  ∑ₖ xblock(p, k) · W1(k, q) over the 128 contracted positions. Entry (p, k) of the x block is x(5000·t + p, k), and the W1
  block is W1 itself, so the stored entry is (x · W1)(5000·t + p, q): point t writes back exactly block t of the whole
  product x · W1. Row r lies in the block of point r / 5000, so the 20 blocks cover the output array, and the array ends
  holding x · W1.
-/
import proofs.«156913_j83777632075847_1_alg».proof.Proof.Gen.KernelIdeal.Frame
import proofs.«156913_j83777632075847_1_alg».proof.Proof.Chain
import proofs.«156913_j83777632075847_1_alg».proof.Proof.SpecMm
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body loads and stores its whole staging buffers: offsets (0, 0). -/
theorem zeroOffsets0 : (![0, 0] : Fin 2 → Nat) = fun _ => 0 := funext fun a => by fin_cases a <;> rfl

/-- The block indices at grid point t: the x window and the output window are at row block t, column block 0; the W1 window
    stays at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The [5000, 128] block of x at point t. -/
abbrev xblk0 (c : Dev nD) (t : Fin cfg0.N) : Vec Ideal S5000x128 .f32 := iblk0 V c 0 t
/-- The [128, 128] block of W1 at point t (all of W1). -/
abbrev wblk0 (c : Dev nD) (t : Fin cfg0.N) : Vec Ideal S128x128 .f32 := iblk0 V c 1 t

/-- What point t writes back is block t of x · W1: at (p, q) both are the sum over k of x(5000·t + p, k) · W1(k, q). -/
theorem stored0_eq (c : Dev nD) (t : Fin cfg0.N) :
    (dat0 (F := Ideal) V c).flushed 2 t = ((cfg0.win 2).blk t).view.read (Elt Ideal) (mm0 (F := Ideal) (V c main_arg0) (V c main_arg2)) := by
  show (cfg0.win 2).cut (grid0.coords t) ((dat0 (F := Ideal) V c).after 2 t) = _
  rw [after0_2]
  unfold out0_2
  rw [View.canon_unit_zero zeroOffsets0]
  simp only [View.ld_unit_zero (S := S5000x128) zeroOffsets0, View.ld_unit_zero (S := S128x128) zeroOffsets0]
  obtain ⟨e0, e1, e2, e3, e4, e5⟩ := blockIndex0 t
  have ht : t.val < 20 := lt_of_lt_of_eq t.isLt N_0
  refine funext fun (y : S5000x128.Idx) => ?_
  obtain ⟨p, q, rfl⟩ : ∃ (p : Fin 5000) (q : Fin 128), y = ix2 p q := ⟨y 0, y 1, eq_ix2 y⟩
  show k0_pay1 (xblk0 V c t) (wblk0 V c t) (ix2 p q) = mm0 (F := Ideal) (V c main_arg0) (V c main_arg2) (((cfg0.win 2).blk t).view.emb (ix2 p q))
  have hrow : t.val * 5000 + p.val < 100000 := by have := p.isLt; omega
  -- entry (p, q) of the output's block t is entry (5000·t + p, q) of the array
  have hemb : ((cfg0.win 2).blk t).view.emb (ix2 p q) = (ix2 (⟨t.val * 5000 + p.val, hrow⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  refine (k0_pay1_apply (xblk0 V c t) (wblk0 V c t) p q).trans ?_
  refine Eq.trans ?_ (congrArg (mm0 (F := Ideal) (V c main_arg0) (V c main_arg2)) hemb).symm
  refine Eq.trans ?_ (mm0_apply (V c main_arg0) (V c main_arg2) ⟨t.val * 5000 + p.val, hrow⟩ q).symm
  refine Finset.sum_congr rfl fun k _ => ?_
  -- entry (p, k) of the x block is x(5000·t + p, k)
  have hx : xblk0 V c t (ix2 p k) = V c main_arg0 (ix2 (⟨t.val * 5000 + p.val, hrow⟩ : Fin 100000) k : S100000x128.Idx) := by
    show V c main_arg0 (((cfg0.win 0).blk t).view.emb (ix2 p k)) = V c main_arg0 _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  -- entry (k, q) of the W1 block is W1(k, q)
  have hw : wblk0 V c t (ix2 k q) = V c main_arg2 (ix2 k q : S128x128.Idx) := by
    show V c main_arg2 (((cfg0.win 1).blk t).view.emb (ix2 k q)) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output array is in point t's block iff each coordinate is in the block's range on its axis. -/
theorem mem_rows0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The 20 row blocks cover the output array: row r is in the block of point r / 5000. -/
theorem rows_cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  refine ⟨t, flush0_2 t, ?_⟩
  rw [mem_rows0]
  obtain ⟨-, -, -, -, e4, e5⟩ := blockIndex0 t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem final0 (c : Dev nD) : (dat0 (F := Ideal) V c).arrAt 2 cfg0.N = mm0 (F := Ideal) (V c main_arg0) (V c main_arg2) :=
  (dat0 (F := Ideal) V c).arrAt_eq_of_cover 2 (mm0 (F := Ideal) (V c main_arg0) (V c main_arg2)) (fun t _ => stored0_eq V c t) rows_cover0

end Cert.Gcn

end
-- ==== Proof.Region1.lean ====
/-
  The second dense product, from row blocks to the whole array.

  The grid has 20 points. At point t the kernel reads rows 5000·t … 5000·t + 4999 of the first layer's output a (all 128
  columns) and the whole of W2, and stores into the same rows of its [100000, 40] output the block product of the relu of
  the a block with W2: entry (p, q) of the stored block is ∑ₖ max(ablock(p, k), 0) · W2(k, q) over the 128 contracted
  positions. Entry (p, k) of the a block is a(5000·t + p, k), and the W2 block is W2 itself, so the stored entry is
  (relu(a) · W2)(5000·t + p, q): point t writes back exactly block t of the whole product relu(a) · W2. Row r lies in the
  block of point r / 5000, so the 20 blocks cover the output array, and the array ends holding relu(a) · W2.
-/
import proofs.«156913_j83777632075847_1_alg».proof.Proof.Gen.KernelIdeal.Frame
import proofs.«156913_j83777632075847_1_alg».proof.Proof.Chain
import proofs.«156913_j83777632075847_1_alg».proof.Proof.SpecMm
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The body loads and stores its whole staging buffers: offsets (0, 0). -/
theorem zeroOffsets1 : (![0, 0] : Fin 2 → Nat) = fun _ => 0 := funext fun a => by fin_cases a <;> rfl

/-- The block indices at grid point t: the a window and the output window are at row block t, column block 0; the W2 window
    stays at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The [5000, 128] block of a at point t. -/
abbrev ablk1 (c : Dev nD) (t : Fin cfg1.N) : Vec Ideal S5000x128 .f32 := iblk1 V c 0 t
/-- The [128, 40] block of W2 at point t (all of W2). -/
abbrev wblk1 (c : Dev nD) (t : Fin cfg1.N) : Vec Ideal S128x40 .f32 := iblk1 V c 1 t

/-- What point t writes back is block t of relu(a) · W2: at (p, q) both are the sum over k of
    max(a(5000·t + p, k), 0) · W2(k, q). -/
theorem stored1_eq (c : Dev nD) (t : Fin cfg1.N) :
    (dat1 (F := Ideal) V c).flushed 2 t = ((cfg1.win 2).blk t).view.read (Elt Ideal) (mm1 (F := Ideal) (V c main_v46) (V c main_arg4)) := by
  show (cfg1.win 2).cut (grid1.coords t) ((dat1 (F := Ideal) V c).after 2 t) = _
  rw [after1_2]
  unfold out1_2
  rw [View.canon_unit_zero zeroOffsets1]
  simp only [View.ld_unit_zero (S := S5000x128) zeroOffsets1, View.ld_unit_zero (S := S128x40) zeroOffsets1]
  obtain ⟨e0, e1, e2, e3, e4, e5⟩ := blockIndex1 t
  have ht : t.val < 20 := lt_of_lt_of_eq t.isLt N_1
  refine funext fun (y : S5000x40.Idx) => ?_
  obtain ⟨p, q, rfl⟩ : ∃ (p : Fin 5000) (q : Fin 40), y = ix2 p q := ⟨y 0, y 1, eq_ix2 y⟩
  show k1_pay1 (ablk1 V c t) (wblk1 V c t) (ix2 p q) = mm1 (F := Ideal) (V c main_v46) (V c main_arg4) (((cfg1.win 2).blk t).view.emb (ix2 p q))
  have hrow : t.val * 5000 + p.val < 100000 := by have := p.isLt; omega
  -- entry (p, q) of the output's block t is entry (5000·t + p, q) of the array
  have hemb : ((cfg1.win 2).blk t).view.emb (ix2 p q) = (ix2 (⟨t.val * 5000 + p.val, hrow⟩ : Fin 100000) q : S100000x40.Idx) := by
    funext a; apply Fin.ext
    match a with
    | ⟨0, _⟩ => show win1_2.index t (0 : Fin 2) * 5000 + 1 * p.val = t.val * 5000 + p.val; omega
    | ⟨1, _⟩ => show win1_2.index t (1 : Fin 2) * 40 + 1 * q.val = q.val; omega
  refine (k1_pay1_apply (ablk1 V c t) (wblk1 V c t) p q).trans ?_
  refine Eq.trans ?_ (congrArg (mm1 (F := Ideal) (V c main_v46) (V c main_arg4)) hemb).symm
  refine Eq.trans ?_ (mm1_apply (V c main_v46) (V c main_arg4) ⟨t.val * 5000 + p.val, hrow⟩ q).symm
  refine Finset.sum_congr rfl fun k _ => ?_
  -- entry (p, k) of the a block is a(5000·t + p, k)
  have ha : ablk1 V c t (ix2 p k) = V c main_v46 (ix2 (⟨t.val * 5000 + p.val, hrow⟩ : Fin 100000) k : S100000x128.Idx) := by
    show V c main_v46 (((cfg1.win 0).blk t).view.emb (ix2 p k)) = V c main_v46 _
    refine congrArg (V c main_v46) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  -- entry (k, q) of the W2 block is W2(k, q)
  have hw : wblk1 V c t (ix2 k q) = V c main_arg4 (ix2 k q : S128x40.Idx) := by
    show V c main_arg4 (((cfg1.win 1).blk t).view.emb (ix2 k q)) = V c main_arg4 _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 40 + 1 * q.val = q.val; omega
  rw [ha, hw]

/-- An index of the output array is in point t's block iff each coordinate is in the block's range on its axis. -/
theorem mem_rows1 (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v47).slice (win1_2.rect t)).set ↔ _
  rw [View.set_slice_whole, Rect.mem_set_unit]
  exact Iff.rfl

/-- The 20 row blocks cover the output array: row r is in the block of point r / 5000. -/
theorem rows_cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  obtain ⟨t, htv⟩ : ∃ t : Fin cfg1.N, t.val = (i 0).val / 5000 := ⟨⟨(i 0).val / 5000, by rw [hN]; omega⟩, rfl⟩
  refine ⟨t, flush1_2 t, ?_⟩
  rw [mem_rows1]
  obtain ⟨-, -, -, -, e4, e5⟩ := blockIndex1 t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

theorem final1 (c : Dev nD) : (dat1 (F := Ideal) V c).arrAt 2 cfg1.N = mm1 (F := Ideal) (V c main_v46) (V c main_arg4) :=
  (dat1 (F := Ideal) V c).arrAt_eq_of_cover 2 (mm1 (F := Ideal) (V c main_v46) (V c main_arg4)) (fun t _ => stored1_eq V c t) rows_cover1

end Cert.Gcn

end
-- ==== Proof.SpecLsm.lean ====
/-
  The row-wise log-softmax read at an entry, at the ideal values. For a row `f` of 40 extended reals, `rowMax f` is the
  maximum of -inf and the row's entries and `rowLsm f j = (f j - rowMax f) - log (∑ₖ exp (f k - rowMax f))`. The host's
  spelling over the whole array (`Chain.lean`'s `lsm`) and the third kernel's block payload are both `rowLsm` of the
  entry's own row.
-/
import proofs.«156913_j83777632075847_1_alg».proof.Proof.Chain
import proofs.«156913_j83777632075847_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx
open Cert.KernelIdeal Cert.KernelIdeal.Gen

/-- The maximum of -inf and a row's entries. -/
def rowMax {C : ℕ} (f : Fin C → EReal) : EReal := (Finset.univ : Finset (Fin C)).fold max (Ideal.ofBits .f32 0xFF800000#32) f

/-- The log-softmax of a row at position `j`. -/
def rowLsm {C : ℕ} (f : Fin C → EReal) (j : Fin C) : EReal :=
  (f j - rowMax f) - Ideal.log (∑ k : Fin C, Ideal.exp (f k - rowMax f))

namespace SpecLsm

/-- The [100000,40] array loses its column axis into [100000]. -/
theorem reduces_S100000x40_S100000 : S100000x40.Reduces [1] S100000 := by decide

/-- Row r of the [100000,40] array with column k inserted is the entry (r, k). -/
theorem lift100000 (h : S100000x40.Reduces [1] S100000) (r : Fin 100000) (k : Fin 40) :
    h.lift (ix1 r) k = ix2 r k :=
  funext fun a => Fin.ext (by match a with | ⟨0, _⟩ => rfl | ⟨1, _⟩ => rfl)

/-- A fold of `max` from `b` is at least `b`, so taking the maximum with `b` once more changes nothing. -/
theorem max_fold_max {C : ℕ} (b : EReal) (f : Fin C → EReal) :
    max b ((Finset.univ : Finset (Fin C)).fold max b f) = (Finset.univ : Finset (Fin C)).fold max b f :=
  max_eq_right ((Finset.le_fold_max b).2 (Or.inl le_rfl))

/-- The host's maximum along the columns, from -inf, at row r: the row's `rowMax`. -/
theorem hmax_apply (a : FVec Ideal S100000x40 .f32) (h' : S100000x40.ReducesTo [1] S100000) (hu : 0 < S_.numel) (r : Fin 100000) :
    Host.reduce FloatOps.maximumf a (constant (F := Ideal) S_ .f32 0xFF800000#32) h' hu (ix1 r) = rowMax (fun k => a (ix2 r k)) := by
  refine (Host.reduce_eq_fold_single FloatOps.maximumf a _ h' reduces_S100000x40_S100000 hu (ix1 r)).trans ?_
  unfold rowMax
  have e : (a ∘ reduces_S100000x40_S100000.lift (ix1 r)) = fun k : Fin 40 => a (ix2 r k) :=
    funext fun k => congrArg a (lift100000 _ r k)
  rw [e]
  rfl

/-- The host's sum along the columns, from 0, at row r: the sum of the row's 40 entries. -/
theorem hsum_apply (y : FVec Ideal S100000x40 .f32) (h' : S100000x40.ReducesTo [1] S100000) (hu : 0 < S_.numel) (r : Fin 100000) :
    Host.reduceAdd (F := Ideal) y (constant (F := Ideal) S_ .f32 0x00000000#32) h' hu (ix1 r) = ∑ k : Fin 40, y (ix2 r k) := by
  refine (Ideal.hostReduceAdd_single h' reduces_S100000x40_S100000 y _ (ix1 r)).trans ?_
  rw [constant_apply, Ideal.ofBits_zero_f32, zero_add]
  exact Finset.sum_congr rfl fun k _ => congrArg y (lift100000 _ r k)

/-- A per-row value [100000] laid as a column [100000,1] reads, at (r, 0), as the value of row r. -/
theorem hcol_apply {α : Type} (v : S100000.Idx → α)
    (hb : S100000.BroadcastsInDim Cert.ReferenceIdeal.S100000x1 (![0] : Fin 1 → Fin Cert.ReferenceIdeal.S100000x1.rank)) (r : Fin 100000) :
    broadcastInDim Cert.ReferenceIdeal.S100000x1 ![0] hb v (ix2 r (0 : Fin 1)) = v (ix1 r) := by
  refine broadcastInDim_apply _ hb v (ix2 r (0 : Fin 1)) (ix1 r) ?_
  intro a
  match a with
  | ⟨0, _⟩ => rfl

/-- A column [100000,1] spread over the 40 columns reads, at (r, j), as the column's entry of row r. -/
theorem hbc_apply {α : Type} (w : Cert.ReferenceIdeal.S100000x1.Idx → α)
    (hb : Cert.ReferenceIdeal.S100000x1.BroadcastsInDim S100000x40 (![0, 1] : Fin 2 → Fin S100000x40.rank)) (r : Fin 100000) (j : Fin 40) :
    broadcastInDim S100000x40 ![0, 1] hb w (ix2 r j) = w (ix2 r (0 : Fin 1)) := by
  refine broadcastInDim_apply _ hb w (ix2 r j) (ix2 r (0 : Fin 1)) ?_
  intro a
  match a with
  | ⟨0, _⟩ => rfl
  | ⟨1, _⟩ => rfl

/-- The host's row maximum, spread over the row, at (r, k): the row's `rowMax`. -/
theorem lsmMax_apply (a : FVec Ideal S100000x40 .f32) (r : Fin 100000) (k : Fin 40) :
    lsmMax (F := Ideal) a (ix2 r k) = rowMax (fun k => a (ix2 r k)) := by
  unfold lsmMax
  rw [hbc_apply, hcol_apply, maximumf_apply, hmax_apply]
  exact max_fold_max _ _

/-- The host's logarithm and exponential act entry by entry. -/
theorem hostLog_apply {s : Shape} (v : FVec Ideal s .f32) (i : s.Idx) : Host.log v i = Ideal.log (v i) := rfl

theorem hostExp_apply {s : Shape} (v : FVec Ideal s .f32) (i : s.Idx) : Host.exp v i = Ideal.exp (v i) := rfl

end SpecLsm

open SpecLsm

/-- The host's log-softmax of the whole array at (r, j) is the log-softmax of row r at j. -/
theorem lsm_apply (a : FVec Ideal S100000x40 .f32) (r : Fin 100000) (j : Fin 40) :
    lsm (F := Ideal) a (ix2 r j) = rowLsm (fun k => a (ix2 r k)) j := by
  unfold lsm
  rw [subf_apply, subf_apply, lsmMax_apply, hbc_apply, hostLog_apply, hcol_apply, hsum_apply]
  unfold rowLsm
  refine congrArg (fun s => _ - Ideal.log s) (Finset.sum_congr rfl fun k _ => ?_)
  rw [hostExp_apply, subf_apply, lsmMax_apply]

namespace SpecLsm

/-- Row p of a [5000,40] block with column k inserted is the entry (p, k). -/
theorem lift5000 (h : S5000x40.Reduces [1] S5000) (p : Fin 5000) (k : Fin 40) :
    h.lift (ix1 p) k = ix2 p k :=
  funext fun a => Fin.ext (by match a with | ⟨0, _⟩ => rfl | ⟨1, _⟩ => rfl)

/-- The block's maximum along the columns, from -inf, at row p: the row's `rowMax`. -/
theorem kmax_apply (x : FVec Ideal S5000x40 .f32) (h : S5000x40.Reduces [1] S5000) (hφ : FKind.Formats .f32)
    (hacc : (0xFF800000#32 : BitVec 32) = 0xFF800000#32) (p : Fin 5000) :
    multiReduction (F := Ideal) .maximumf [1] S5000 x 0xFF800000#32 h hφ hacc (ix1 p) = rowMax (fun k => x (ix2 p k)) := by
  refine (Ideal.multiReduction_maximumf_single x _ h hφ hacc (ix1 p)).trans ?_
  unfold rowMax
  have e : (x ∘ h.lift (ix1 p)) = fun k : Fin 40 => x (ix2 p k) := funext fun k => congrArg x (lift5000 h p k)
  rw [e]
  rfl

/-- The block's sum along the columns at row p: the sum of the row's 40 entries. -/
theorem ksum_apply (x : FVec Ideal S5000x40 .f32) (h : S5000x40.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ k : Fin 40, x (ix2 p k) := by
  refine (Ideal.multiReduction_add_single x _ h hφ hacc (ix1 p)).trans ?_
  exact Finset.sum_congr rfl fun k _ => congrArg x (lift5000 h p k)

/-- A column [5000,1] spread over the 40 columns reads, at (p, j), as the column's entry of row p. -/
theorem kbc_apply {α : Type} (w : S5000x1.Idx → α) (hb : S5000x1.Broadcasts S5000x40) (p : Fin 5000) (j : Fin 40) :
    broadcastTo S5000x40 w hb (ix2 p j) = w (ix2 p (0 : Fin 1)) := by
  refine broadcastTo_apply w hb (ix2 p j) (ix2 p (0 : Fin 1)) ?_
  intro a
  match a with
  | ⟨0, _⟩ => rfl
  | ⟨1, _⟩ => rfl

/-- A per-row value [5000] recast as a column [5000,1] reads, at (p, 0), as the value of row p. -/
theorem kcast_apply {α : Type} (v : S5000.Idx → α) (hc : S5000.ShapeCasts S5000x1) (p : Fin 5000) :
    shapeCast S5000x1 v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

end SpecLsm

/-- The third kernel's stored block at (p, j) is the log-softmax of the block's row p at j. -/
theorem k2_pay1_apply (x : Vec Ideal S5000x40 .f32) (p : Fin 5000) (j : Fin 40) :
    k2_pay1 (F := Ideal) x (ix2 p j) = rowLsm (fun k => x (ix2 p k)) j := by
  unfold k2_pay1
  simp only [shapeCast_self]
  have hd : ∀ k : Fin 40, subf x (broadcastTo S5000x40 (shapeCast S5000x1
      (multiReduction (F := Ideal) .maximumf [1] S5000 x 0xFF800000#32 reduces_S5000x40_S5000 (.inl rfl) rfl)
      shapeCasts_S5000_S5000x1) broadcasts_S5000x1_S5000x40) (ix2 p k)
      = x (ix2 p k) - rowMax (fun k => x (ix2 p k)) := fun k => by
    rw [subf_apply, kbc_apply, kcast_apply, kmax_apply]
  rw [subf_apply, hd, kbc_apply]
  show _ - Ideal.log (shapeCast S5000x1 _ _ (ix2 p (0 : Fin 1))) = _
  rw [kcast_apply, ksum_apply]
  unfold rowLsm
  refine congrArg (fun s => _ - Ideal.log s) (Finset.sum_congr rfl fun k _ => ?_)
  exact congrArg Ideal.exp (hd k)

end Cert.Gcn

end
-- ==== Proof.Region2.lean ====
/-
  The third kernel (the row-wise log-softmax) read as a whole array.

  The grid has 20 points; point t reads rows 5000·t … 5000·t + 4999 (all 40 columns) of its input array and writes
  back the same rows of its output array. What it writes at row p, column j of the block is the log-softmax of the
  block's row p at j; the block's row p is the input array's row 5000·t + p, so that is the host's log-softmax of the
  whole input array at (5000·t + p, j). Row r of the array lies in the block of point r / 5000, so the twenty blocks
  fill the array, and the output array ends holding the log-softmax of the whole input array.
-/
import proofs.«156913_j83777632075847_1_alg».proof.Proof.Gen.KernelIdeal.Frame
import proofs.«156913_j83777632075847_1_alg».proof.Proof.Chain
import proofs.«156913_j83777632075847_1_alg».proof.Proof.SpecLsm
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The origin of a block, as a constant function. -/
theorem origin2 : (![0, 0] : Fin 2 → Nat) = fun _ => 0 := funext fun a => by fin_cases a <;> rfl

/-- The grid has twenty points. -/
theorem points2 (t : Fin cfg2.N) : t.val < 20 :=
  Nat.lt_of_lt_of_eq t.isLt N_2

/-- Both windows' block index at point t is (t, 0): the input and the output move together, one row block per point. -/
theorem rowBlock2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block of point t: 5000 rows of 40 entries. -/
abbrev xblk2 (c : Dev nD) (t : Fin cfg2.N) : Vec Ideal S5000x40 .f32 := iblk2 V c 0 t

/-- WHAT POINT t WRITES BACK is block t of the log-softmax of the whole input array. -/
theorem flushed2_lsm (c : Dev nD) (t : Fin cfg2.N) :
    (dat2 (F := Ideal) V c).flushed 1 t = ((cfg2.win 1).blk t).view.read (Elt Ideal) (lsm (F := Ideal) (V c main_v78)) := by
  show (cfg2.win 1).cut (grid2.coords t) ((dat2 (F := Ideal) V c).after 1 t) = _
  rw [after2_1]
  unfold out2_1
  rw [View.canon_unit_zero origin2]
  simp only [View.ld_unit_zero (S := S5000x40) origin2]
  obtain ⟨e0, e1, e2, e3⟩ := rowBlock2 t
  have ht := points2 t
  refine funext fun (y : S5000x40.Idx) => ?_
  obtain ⟨p, q, rfl⟩ : ∃ (p : Fin 5000) (q : Fin 40), y = ix2 p q := ⟨y 0, y 1, eq_ix2 y⟩
  have hp := p.isLt
  show k2_pay1 (F := Ideal) (xblk2 V c t) (ix2 p q)
      = lsm (F := Ideal) (V c main_v78) (((cfg2.win 1).blk t).view.emb (ix2 p q))
  -- the block's entry (p, q) sits at row 5000·t + p, column q of the array
  have hrow : ((cfg2.win 1).blk t).view.emb (ix2 p q)
      = ix2 (⟨t.val * 5000 + p.val, by omega⟩ : Fin 100000) q := by
    funext a; apply Fin.ext
    match a with
    | ⟨0, _⟩ => show win2_1.index t (0 : Fin 2) * 5000 + 1 * p.val = t.val * 5000 + p.val; omega
    | ⟨1, _⟩ => show win2_1.index t (1 : Fin 2) * 40 + 1 * q.val = q.val; omega
  rw [hrow]
  refine (k2_pay1_apply (xblk2 V c t) p q).trans ?_
  refine Eq.trans ?_ (lsm_apply (V c main_v78) (⟨t.val * 5000 + p.val, by omega⟩ : Fin 100000) q).symm
  refine congrArg (fun f => rowLsm f q) (funext fun k => ?_)
  -- the input block's row p is the input array's row 5000·t + p
  show V c main_v78 (((cfg2.win 0).blk t).view.emb (ix2 p k))
      = V c main_v78 (ix2 (⟨t.val * 5000 + p.val, by omega⟩ : Fin 100000) k)
  refine congrArg (V c main_v78) ?_
  funext a; apply Fin.ext
  match a with
  | ⟨0, _⟩ => show win2_0.index t (0 : Fin 2) * 5000 + 1 * p.val = t.val * 5000 + p.val; omega
  | ⟨1, _⟩ => show win2_0.index t (1 : Fin 2) * 40 + 1 * k.val = k.val; omega

/-- An index of the output array is in point t's block iff each coordinate is in the block's range on its axis. -/
theorem mem_block2 (t : Fin cfg2.N) (i : S100000x40.Idx) :
    i ∈ ((cfg2.win 1).blk t).view.set ↔ ∀ a : Fin 2, win2_1.index t a * S5000x40.size a ≤ (i a).val
      ∧ (i a).val < win2_1.index t a * S5000x40.size a + S5000x40.size a := by
  show i ∈ ((View.whole main_v79).slice (win2_1.rect t)).set ↔ _
  rw [View.set_slice_whole, Rect.mem_set_unit]
  exact Iff.rfl

/-- Row r of the output array lies in the block of point r / 5000: the twenty row blocks fill the array. -/
theorem cover2 (i : S100000x40.Idx) :
    ∃ t : Fin cfg2.N, (cfg2.win 1).flush t = true ∧ i ∈ ((cfg2.win 1).blk t).view.set := by
  have hi0 : (i 0).val < 100000 := (i 0).isLt
  have hi1 : (i 1).val < 40 := (i 1).isLt
  have hN : (i 0).val / 5000 < cfg2.N := Nat.lt_of_lt_of_eq (by omega) N_2.symm
  refine ⟨⟨(i 0).val / 5000, hN⟩, flush2_1 _, ?_⟩
  obtain ⟨e0, e1, e2, e3⟩ := rowBlock2 ⟨(i 0).val / 5000, hN⟩
  have e2' : win2_1.index ⟨(i 0).val / 5000, hN⟩ (0 : Fin 2) = (i 0).val / 5000 := e2
  rw [mem_block2]
  intro a
  match a with
  | ⟨0, _⟩ =>
    show win2_1.index ⟨(i 0).val / 5000, hN⟩ (0 : Fin 2) * 5000 ≤ (i 0).val
      ∧ (i 0).val < win2_1.index ⟨(i 0).val / 5000, hN⟩ (0 : Fin 2) * 5000 + 5000
    omega
  | ⟨1, _⟩ =>
    show win2_1.index ⟨(i 0).val / 5000, hN⟩ (1 : Fin 2) * 40 ≤ (i 1).val
      ∧ (i 1).val < win2_1.index ⟨(i 0).val / 5000, hN⟩ (1 : Fin 2) * 40 + 40
    omega

theorem final2 (c : Dev nD) : (dat2 (F := Ideal) V c).arrAt 1 cfg2.N = lsm (F := Ideal) (V c main_v78) :=
  (dat2 (F := Ideal) V c).arrAt_eq_of_cover 1 (lsm (F := Ideal) (V c main_v78)) (fun t _ => flushed2_lsm V c t) cover2

end Cert.Gcn

end
-- ==== Proof.HostStages.lean ====
/-
  The kernel program's host stretches, read one at a time from ANY buffer contents `Wv`, for any float family: what each
  stretch leaves in the buffers the next items read, as the functions of `Chain.lean`, and which buffers it leaves alone.
  The first stretch computes the edge-list vectors (sources and destinations with the self loops) and, from the destinations,
  the degree's compare and inverse square root; the call after it selects between them (`dis`); the stretch between the first
  and the second pallas_call is the first layer's aggregation of the first product; the one between the second and the third
  the second layer's aggregation of the second product.
-/
import proofs.«156913_j83777632075847_1_alg».proof.Proof.Gen.KernelIdeal.Launch
import proofs.«156913_j83777632075847_1_alg».proof.Proof.Chain
import Idealize.ShloMosaic.Lib.StableHlo.Run

set_option maxRecDepth 16384

noncomputable section

namespace Cert.Gcn

open Idealize.ShloMosaic Idealize.ShloMosaic.TcCoe Idealize.ShloMosaic.StableHlo Idealize.SL.Sem
open Cert.KernelIdeal Cert.KernelIdeal.Gen Cert.KernelIdeal.Facts₀

variable {F : FTy → Type} [FloatOps F] (Wv : Valuation τ sig (Elt F))

/-- A buffer that no operation of a stretch writes keeps its contents: each operation's written buffer is another one. -/
macro "stretch_keeps" : tactic => `(tactic| (
  refine StableHlo.after_of_forall_not_mem _ _ (List.forall_iff_forall_mem.mp ?_)
  simp only [hostOps0, hostOps0_1, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## The first stretch: the edge-list vectors, the degree's compare and inverse square root -/

theorem stage0_v5 : after (hostOps0 (F := F)) Wv (Proc.devRef .tc main_v5) = rowFull (Wv (Proc.devRef .tc main_arg1)) := by
  dsimp only [hostOps0]; after_results_simp; rfl

theorem stage0_v6 : after (hostOps0 (F := F)) Wv (Proc.devRef .tc main_v6) = colFull (Wv (Proc.devRef .tc main_arg1)) := by
  dsimp only [hostOps0]; after_results_simp; rfl

theorem stage0_v12 : after (hostOps0 (F := F)) Wv (Proc.devRef .tc main_v12)
    = cmpf (F := F) .ogt (deg (colFull (Wv (Proc.devRef .tc main_arg1)))) (broadcastInDim S100000 ![] Facts₀.bcast_S_S100000 (constant S_ .f32 0x00000000#32)) := by
  dsimp only [hostOps0]; after_results_simp; rfl

theorem stage0_v13 : after (hostOps0 (F := F)) Wv (Proc.devRef .tc main_v13) = Host.rsqrt (deg (colFull (Wv (Proc.devRef .tc main_arg1)))) := by
  dsimp only [hostOps0]; after_results_simp; rfl

theorem stage0_cst2 : after (hostOps0 (F := F)) Wv (Proc.devRef .tc main_cst_2) = constant S_ .f32 0x00000000#32 := by
  dsimp only [hostOps0]; after_results_simp

/-! ## The call after it: the select -/

theorem stage01_v14 : after (hostOps0_1 (F := F)) Wv (Proc.devRef .tc main_v14)
    = select (Wv (Proc.devRef .tc main_v12)) (Wv (Proc.devRef .tc main_v13)) (broadcastInDim S100000 ![] Facts₀.bcast_S_S100000 (id (Wv (Proc.devRef .tc main_cst_2)))) := by
  dsimp only [hostOps0_1]; after_results_simp; rfl

/-! ## Between the pallas_calls: the two aggregations -/

theorem stage1_v46 : after (hostOps1 (F := F)) Wv (Proc.devRef .tc main_v46)
    = aggA (Wv (Proc.devRef .tc main_v15)) (Wv (Proc.devRef .tc main_v5)) (Wv (Proc.devRef .tc main_v6)) (Wv (Proc.devRef .tc main_v14)) (Wv (Proc.devRef .tc main_arg3)) := by
  dsimp only [hostOps1]; after_results_simp; rfl

theorem stage2_v78 : after (hostOps2 (F := F)) Wv (Proc.devRef .tc main_v78)
    = aggB (Wv (Proc.devRef .tc main_v47)) (Wv (Proc.devRef .tc main_v5)) (Wv (Proc.devRef .tc main_v6)) (Wv (Proc.devRef .tc main_v14)) (Wv (Proc.devRef .tc main_arg5)) := by
  dsimp only [hostOps2]; after_results_simp; rfl

/-! ## What each stretch leaves alone -/

theorem keep0_arg0 : after (hostOps0 (F := F)) Wv (Proc.devRef .tc main_arg0) = Wv (Proc.devRef .tc main_arg0) := by stretch_keeps
theorem keep0_arg2 : after (hostOps0 (F := F)) Wv (Proc.devRef .tc main_arg2) = Wv (Proc.devRef .tc main_arg2) := by stretch_keeps
theorem keep0_arg3 : after (hostOps0 (F := F)) Wv (Proc.devRef .tc main_arg3) = Wv (Proc.devRef .tc main_arg3) := by stretch_keeps
theorem keep0_arg4 : after (hostOps0 (F := F)) Wv (Proc.devRef .tc main_arg4) = Wv (Proc.devRef .tc main_arg4) := by stretch_keeps
theorem keep0_arg5 : after (hostOps0 (F := F)) Wv (Proc.devRef .tc main_arg5) = Wv (Proc.devRef .tc main_arg5) := by stretch_keeps

theorem keep01_arg0 : after (hostOps0_1 (F := F)) Wv (Proc.devRef .tc main_arg0) = Wv (Proc.devRef .tc main_arg0) := by stretch_keeps
theorem keep01_arg2 : after (hostOps0_1 (F := F)) Wv (Proc.devRef .tc main_arg2) = Wv (Proc.devRef .tc main_arg2) := by stretch_keeps
theorem keep01_arg3 : after (hostOps0_1 (F := F)) Wv (Proc.devRef .tc main_arg3) = Wv (Proc.devRef .tc main_arg3) := by stretch_keeps
theorem keep01_arg4 : after (hostOps0_1 (F := F)) Wv (Proc.devRef .tc main_arg4) = Wv (Proc.devRef .tc main_arg4) := by stretch_keeps
theorem keep01_arg5 : after (hostOps0_1 (F := F)) Wv (Proc.devRef .tc main_arg5) = Wv (Proc.devRef .tc main_arg5) := by stretch_keeps
theorem keep01_v5 : after (hostOps0_1 (F := F)) Wv (Proc.devRef .tc main_v5) = Wv (Proc.devRef .tc main_v5) := by stretch_keeps
theorem keep01_v6 : after (hostOps0_1 (F := F)) Wv (Proc.devRef .tc main_v6) = Wv (Proc.devRef .tc main_v6) := by stretch_keeps

theorem keep1_arg4 : after (hostOps1 (F := F)) Wv (Proc.devRef .tc main_arg4) = Wv (Proc.devRef .tc main_arg4) := by stretch_keeps
theorem keep1_arg5 : after (hostOps1 (F := F)) Wv (Proc.devRef .tc main_arg5) = Wv (Proc.devRef .tc main_arg5) := by stretch_keeps
theorem keep1_v5 : after (hostOps1 (F := F)) Wv (Proc.devRef .tc main_v5) = Wv (Proc.devRef .tc main_v5) := by stretch_keeps
theorem keep1_v6 : after (hostOps1 (F := F)) Wv (Proc.devRef .tc main_v6) = Wv (Proc.devRef .tc main_v6) := by stretch_keeps
theorem keep1_v14 : after (hostOps1 (F := F)) Wv (Proc.devRef .tc main_v14) = Wv (Proc.devRef .tc main_v14) := by stretch_keeps

end Cert.Gcn

end
-- ==== Proof.KernelValue.lean ====
/-
  What the kernel program's result array holds at the end of its run, at the ideal values: `gcn` of the six arguments.
  The run's buffer contents at each boundary are a fold through @main; the result array is read back through it. The last
  pallas_call leaves the row-wise log-softmax of its input array; the host stretch before it computed that array as the
  second aggregation of the second product; the second pallas_call left that product of the first aggregation's relu;
  and so on back to the arguments. The edge-list vectors and `dis` are computed once, in the first stretch and the call
  after it, and no later stretch or pallas_call writes them; no stretch or pallas_call writes an argument.
-/
import proofs.«156913_j83777632075847_1_alg».proof.Proof.Region0
import proofs.«156913_j83777632075847_1_alg».proof.Proof.Region1
import proofs.«156913_j83777632075847_1_alg».proof.Proof.Region2
import proofs.«156913_j83777632075847_1_alg».proof.Proof.HostStages

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## At the first pallas_call's entry -/

theorem W2_arg0 : W2 m ρ c (Proc.devRef .tc main_arg0) = (m ((c : Thread nD τ).loc main_arg0)) :=
  (keep01_arg0 (W1 m ρ c)).trans (keep0_arg0 (W0 m ρ c))
theorem W2_arg2 : W2 m ρ c (Proc.devRef .tc main_arg2) = (m ((c : Thread nD τ).loc main_arg2)) :=
  (keep01_arg2 (W1 m ρ c)).trans (keep0_arg2 (W0 m ρ c))
theorem W2_arg3 : W2 m ρ c (Proc.devRef .tc main_arg3) = (m ((c : Thread nD τ).loc main_arg3)) :=
  (keep01_arg3 (W1 m ρ c)).trans (keep0_arg3 (W0 m ρ c))
theorem W2_arg4 : W2 m ρ c (Proc.devRef .tc main_arg4) = (m ((c : Thread nD τ).loc main_arg4)) :=
  (keep01_arg4 (W1 m ρ c)).trans (keep0_arg4 (W0 m ρ c))
theorem W2_arg5 : W2 m ρ c (Proc.devRef .tc main_arg5) = (m ((c : Thread nD τ).loc main_arg5)) :=
  (keep01_arg5 (W1 m ρ c)).trans (keep0_arg5 (W0 m ρ c))
theorem W2_v5 : W2 m ρ c (Proc.devRef .tc main_v5) = (rowFull (m ((c : Thread nD τ).loc main_arg1))) :=
  (keep01_v5 (W1 m ρ c)).trans (stage0_v5 (W0 m ρ c))
theorem W2_v6 : W2 m ρ c (Proc.devRef .tc main_v6) = (colFull (m ((c : Thread nD τ).loc main_arg1))) :=
  (keep01_v6 (W1 m ρ c)).trans (stage0_v6 (W0 m ρ c))
theorem W2_v14 : W2 m ρ c (Proc.devRef .tc main_v14) = (dis (F := Ideal) (colFull (m ((c : Thread nD τ).loc main_arg1)))) := by
  refine (stage01_v14 (W1 m ρ c)).trans ?_
  show select (StableHlo.after hostOps0 (W0 m ρ c) (Proc.devRef .tc main_v12)) (StableHlo.after hostOps0 (W0 m ρ c) (Proc.devRef .tc main_v13))
      (broadcastInDim S100000 ![] Facts₀.bcast_S_S100000 (id (StableHlo.after hostOps0 (W0 m ρ c) (Proc.devRef .tc main_cst_2)))) = _
  rw [stage0_v12, stage0_v13, stage0_cst2]
  rfl

/-! ## After the first pallas_call -/

theorem W3_v15 : W3 m ρ c (Proc.devRef .tc main_v15) = (mm0 (F := Ideal) (m ((c : Thread nD τ).loc main_arg0)) (m ((c : Thread nD τ).loc main_arg2))) := by
  refine (W3_arr m ρ c 2).trans ((final0 (V2 m ρ) c).trans ?_)
  show mm0 (F := Ideal) (W2 m ρ c (Proc.devRef .tc main_arg0)) (W2 m ρ c (Proc.devRef .tc main_arg2)) = _
  rw [W2_arg0, W2_arg2]
theorem W3_arg3 : W3 m ρ c (Proc.devRef .tc main_arg3) = (m ((c : Thread nD τ).loc main_arg3)) :=
  (W3_of_ne m ρ c main_arg3 (by decide)).trans (W2_arg3 m ρ c)
theorem W3_arg4 : W3 m ρ c (Proc.devRef .tc main_arg4) = (m ((c : Thread nD τ).loc main_arg4)) :=
  (W3_of_ne m ρ c main_arg4 (by decide)).trans (W2_arg4 m ρ c)
theorem W3_arg5 : W3 m ρ c (Proc.devRef .tc main_arg5) = (m ((c : Thread nD τ).loc main_arg5)) :=
  (W3_of_ne m ρ c main_arg5 (by decide)).trans (W2_arg5 m ρ c)
theorem W3_v5 : W3 m ρ c (Proc.devRef .tc main_v5) = (rowFull (m ((c : Thread nD τ).loc main_arg1))) :=
  (W3_of_ne m ρ c main_v5 (by decide)).trans (W2_v5 m ρ c)
theorem W3_v6 : W3 m ρ c (Proc.devRef .tc main_v6) = (colFull (m ((c : Thread nD τ).loc main_arg1))) :=
  (W3_of_ne m ρ c main_v6 (by decide)).trans (W2_v6 m ρ c)
theorem W3_v14 : W3 m ρ c (Proc.devRef .tc main_v14) = (dis (F := Ideal) (colFull (m ((c : Thread nD τ).loc main_arg1)))) :=
  (W3_of_ne m ρ c main_v14 (by decide)).trans (W2_v14 m ρ c)

/-! ## After the first aggregation -/

theorem W4_v46 : W4 m ρ c (Proc.devRef .tc main_v46) = (aggA (mm0 (F := Ideal) (m ((c : Thread nD τ).loc main_arg0)) (m ((c : Thread nD τ).loc main_arg2))) (rowFull (m ((c : Thread nD τ).loc main_arg1))) (colFull (m ((c : Thread nD τ).loc main_arg1))) (dis (F := Ideal) (colFull (m ((c : Thread nD τ).loc main_arg1)))) (m ((c : Thread nD τ).loc main_arg3))) := by
  refine (stage1_v46 (W3 m ρ c)).trans ?_
  rw [W3_v15, W3_v5, W3_v6, W3_v14, W3_arg3]
theorem W4_arg4 : W4 m ρ c (Proc.devRef .tc main_arg4) = (m ((c : Thread nD τ).loc main_arg4)) :=
  (keep1_arg4 (W3 m ρ c)).trans (W3_arg4 m ρ c)
theorem W4_arg5 : W4 m ρ c (Proc.devRef .tc main_arg5) = (m ((c : Thread nD τ).loc main_arg5)) :=
  (keep1_arg5 (W3 m ρ c)).trans (W3_arg5 m ρ c)
theorem W4_v5 : W4 m ρ c (Proc.devRef .tc main_v5) = (rowFull (m ((c : Thread nD τ).loc main_arg1))) :=
  (keep1_v5 (W3 m ρ c)).trans (W3_v5 m ρ c)
theorem W4_v6 : W4 m ρ c (Proc.devRef .tc main_v6) = (colFull (m ((c : Thread nD τ).loc main_arg1))) :=
  (keep1_v6 (W3 m ρ c)).trans (W3_v6 m ρ c)
theorem W4_v14 : W4 m ρ c (Proc.devRef .tc main_v14) = (dis (F := Ideal) (colFull (m ((c : Thread nD τ).loc main_arg1)))) :=
  (keep1_v14 (W3 m ρ c)).trans (W3_v14 m ρ c)

/-! ## After the second pallas_call -/

theorem W5_v47 : W5 m ρ c (Proc.devRef .tc main_v47) = (mm1 (F := Ideal) (aggA (mm0 (F := Ideal) (m ((c : Thread nD τ).loc main_arg0)) (m ((c : Thread nD τ).loc main_arg2))) (rowFull (m ((c : Thread nD τ).loc main_arg1))) (colFull (m ((c : Thread nD τ).loc main_arg1))) (dis (F := Ideal) (colFull (m ((c : Thread nD τ).loc main_arg1)))) (m ((c : Thread nD τ).loc main_arg3))) (m ((c : Thread nD τ).loc main_arg4))) := by
  refine (W5_arr m ρ c 2).trans ((final1 (V4 m ρ) c).trans ?_)
  show mm1 (F := Ideal) (W4 m ρ c (Proc.devRef .tc main_v46)) (W4 m ρ c (Proc.devRef .tc main_arg4)) = _
  rw [W4_v46, W4_arg4]
theorem W5_arg5 : W5 m ρ c (Proc.devRef .tc main_arg5) = (m ((c : Thread nD τ).loc main_arg5)) :=
  (W5_of_ne m ρ c main_arg5 (by decide)).trans (W4_arg5 m ρ c)
theorem W5_v5 : W5 m ρ c (Proc.devRef .tc main_v5) = (rowFull (m ((c : Thread nD τ).loc main_arg1))) :=
  (W5_of_ne m ρ c main_v5 (by decide)).trans (W4_v5 m ρ c)
theorem W5_v6 : W5 m ρ c (Proc.devRef .tc main_v6) = (colFull (m ((c : Thread nD τ).loc main_arg1))) :=
  (W5_of_ne m ρ c main_v6 (by decide)).trans (W4_v6 m ρ c)
theorem W5_v14 : W5 m ρ c (Proc.devRef .tc main_v14) = (dis (F := Ideal) (colFull (m ((c : Thread nD τ).loc main_arg1)))) :=
  (W5_of_ne m ρ c main_v14 (by decide)).trans (W4_v14 m ρ c)

/-! ## After the second aggregation, and the last pallas_call -/

theorem W6_v78 : W6 m ρ c (Proc.devRef .tc main_v78) = (aggB (mm1 (F := Ideal) (aggA (mm0 (F := Ideal) (m ((c : Thread nD τ).loc main_arg0)) (m ((c : Thread nD τ).loc main_arg2))) (rowFull (m ((c : Thread nD τ).loc main_arg1))) (colFull (m ((c : Thread nD τ).loc main_arg1))) (dis (F := Ideal) (colFull (m ((c : Thread nD τ).loc main_arg1)))) (m ((c : Thread nD τ).loc main_arg3))) (m ((c : Thread nD τ).loc main_arg4))) (rowFull (m ((c : Thread nD τ).loc main_arg1))) (colFull (m ((c : Thread nD τ).loc main_arg1))) (dis (F := Ideal) (colFull (m ((c : Thread nD τ).loc main_arg1)))) (m ((c : Thread nD τ).loc main_arg5))) := by
  refine (stage2_v78 (W5 m ρ c)).trans ?_
  rw [W5_v47, W5_v5, W5_v6, W5_v14, W5_arg5]

/-- The result array at the last boundary is `gcn` of the arguments' launch contents. -/
theorem W7_v79 :
    W7 (F := Ideal) m ρ c (Proc.devRef .tc main_v79)
      = gcn (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W7_arr m ρ c 1).trans ((final2 (V6 m ρ) c).trans ?_)
  show lsm (F := Ideal) (W6 m ρ c (Proc.devRef .tc main_v78)) = _
  rw [W6_v78]
  rfl

end Cert.Gcn

end
-- ==== Proof.RefStages.lean ====
/-
  The reference program's host operations, read in consecutive pieces from ANY buffer contents, for any float family:
  what each piece leaves in the buffers later pieces read, as the functions of `Chain.lean`, and which buffers it leaves alone;
  then the whole list: the result buffer ends at `gcn` of the arguments, the arguments as they were.
  The reference slices the edge list once, computes the edge-list vectors with the self loops and `dis` (operations 1–22,
  with the first product), aggregates (23–60), takes the relu and the second product (61–64), computes the same vectors
  and `dis` a second time from the same slices (65–81), aggregates again (82–119) and ends with the log-softmax (120–134, read in four pieces: the row maximum, the shifted array, the log of the row sums, the result).
-/
import proofs.«156913_j83777632075847_1_alg».proof.Proof.RefRun
import proofs.«156913_j83777632075847_1_alg».proof.Proof.Chain
import Idealize.ShloMosaic.Lib.StableHlo.Run

set_option maxRecDepth 16384

noncomputable section

namespace Cert.Gcn

open Idealize.ShloMosaic Idealize.ShloMosaic.TcCoe Idealize.ShloMosaic.StableHlo Idealize.SL.Sem
open Cert.ReferenceIdeal Cert.ReferenceIdeal.ValueP

variable {F : FTy → Type} [FloatOps F]

/-- The edge sources: row 0 of the edge list. -/
def srcs (ei : IVec S2x1600000 32) : IVec S1600000 32 :=
  shapeCast _ (extractStridedSlice S1x1600000 ![0, 0] ei Facts₀.slices_S2x1600000_S1x1600000_0_0) Facts₀.shapeCasts_S1x1600000_S1600000

/-- The edge destinations: row 1 of the edge list. -/
def dsts (ei : IVec S2x1600000 32) : IVec S1600000 32 :=
  shapeCast _ (extractStridedSlice S1x1600000 ![1, 0] ei Facts₀.slices_S2x1600000_S1x1600000_1_0) Facts₀.shapeCasts_S1x1600000_S1600000

/-- An edge vector followed by every node once (the self loops). -/
def withLoops (v : IVec S1600000 32) : IVec S1700000 32 :=
  concatenate S1700000 0 [⟨S1600000, v⟩, ⟨S100000, (iotaInDim S100000 32 0)⟩] Facts₀.concatenates_S1600000_S100000_S1700000_d0

theorem rowFull_eq (ei : IVec S2x1600000 32) : withLoops (srcs ei) = rowFull ei := rfl
theorem colFull_eq (ei : IVec S2x1600000 32) : withLoops (dsts ei) = colFull ei := rfl

/-- Two pieces run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A buffer that no operation of a piece writes keeps its contents: each operation's written buffer is another one. -/
macro "piece_keeps" : tactic => `(tactic| (
  refine StableHlo.after_of_forall_not_mem _ _ (List.forall_iff_forall_mem.mp ?_)
  simp only [ops, opsA, opsB, opsC, opsD, opsE, opsF1, opsF2, opsF3, opsF4, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

section Pieces

variable (Wv : Valuation τ sig (Elt F))

/-! ## Operations 1–22: the edge-list vectors, the first product, `dis` -/

theorem A_v1 : after (opsA (F := F)) Wv (Proc.devRef .tc main_v1) = srcs (Wv (Proc.devRef .tc main_arg1)) := by
  dsimp only [opsA]; after_results_simp; rfl
theorem A_v3 : after (opsA (F := F)) Wv (Proc.devRef .tc main_v3) = dsts (Wv (Proc.devRef .tc main_arg1)) := by
  dsimp only [opsA]; after_results_simp; rfl
theorem A_v4 : after (opsA (F := F)) Wv (Proc.devRef .tc main_v4) = mm0 (Wv (Proc.devRef .tc main_arg0)) (Wv (Proc.devRef .tc main_arg2)) := by
  dsimp only [opsA]; after_results_simp; rfl
theorem A_v6 : after (opsA (F := F)) Wv (Proc.devRef .tc main_v6) = rowFull (Wv (Proc.devRef .tc main_arg1)) := by
  dsimp only [opsA]; after_results_simp; rfl
theorem A_v7 : after (opsA (F := F)) Wv (Proc.devRef .tc main_v7) = colFull (Wv (Proc.devRef .tc main_arg1)) := by
  dsimp only [opsA]; after_results_simp; rfl
theorem A_v15 : after (opsA (F := F)) Wv (Proc.devRef .tc main_v15) = dis (colFull (Wv (Proc.devRef .tc main_arg1))) := by
  dsimp only [opsA]; after_results_simp; rfl

/-! ## Operations 23–60: the first aggregation; 61–64: the relu and the second product -/

theorem B_v46 : after (opsB (F := F)) Wv (Proc.devRef .tc main_v46) = aggA (Wv (Proc.devRef .tc main_v4)) (Wv (Proc.devRef .tc main_v6)) (Wv (Proc.devRef .tc main_v7)) (Wv (Proc.devRef .tc main_v15)) (Wv (Proc.devRef .tc main_arg3)) := by
  dsimp only [opsB]; after_results_simp; rfl
theorem C_v48 : after (opsC (F := F)) Wv (Proc.devRef .tc main_v48) = mm1 (Wv (Proc.devRef .tc main_v46)) (Wv (Proc.devRef .tc main_arg4)) := by
  dsimp only [opsC]; after_results_simp; rfl

/-! ## Operations 65–81: the edge-list vectors and `dis` once more, from the same slices; 82–119: the second aggregation; 120–134: the log-softmax -/

theorem D_v50 : after (opsD (F := F)) Wv (Proc.devRef .tc main_v50) = withLoops (Wv (Proc.devRef .tc main_v1)) := by
  dsimp only [opsD]; after_results_simp; rfl
theorem D_v51 : after (opsD (F := F)) Wv (Proc.devRef .tc main_v51) = withLoops (Wv (Proc.devRef .tc main_v3)) := by
  dsimp only [opsD]; after_results_simp; rfl
theorem D_v59 : after (opsD (F := F)) Wv (Proc.devRef .tc main_v59) = dis (withLoops (Wv (Proc.devRef .tc main_v3))) := by
  dsimp only [opsD]; after_results_simp; rfl
theorem E_v90 : after (opsE (F := F)) Wv (Proc.devRef .tc main_v90) = aggB (Wv (Proc.devRef .tc main_v48)) (Wv (Proc.devRef .tc main_v50)) (Wv (Proc.devRef .tc main_v51)) (Wv (Proc.devRef .tc main_v59)) (Wv (Proc.devRef .tc main_arg5)) := by
  dsimp only [opsE]; after_results_simp; rfl
/-- Contents carried to a buffer's declared type and back are the contents. -/
theorem ofBuf_toBuf {T : BufTy} (x : TRef sig T) (v : T.Contents (Elt F)) : x.ofBuf (x.toBuf v) = v := by
  obtain ⟨r, h, h2, h3⟩ := x
  subst h
  rfl

/-- The log-softmax's input buffer is declared at its own type: reading it at that type changes nothing. -/
theorem ofBuf_v90 (p1 p2 p3) (X : (⟨S100000x40, .f32⟩ : BufTy).Contents (Elt F)) :
    (TRef.of (T := ⟨S100000x40, .f32⟩) main_v90 p1 p2 p3).ofBuf X = X := rfl
/-- Likewise writing the row maxima's buffer. -/
theorem toBuf_v2 (p1 p2 p3) (X : (⟨S100000, .f32⟩ : BufTy).Contents (Elt F)) :
    (TRef.of (T := ⟨S100000, .f32⟩) main_call3_v2 p1 p2 p3).toBuf X = X := rfl

/-- The row maxima from -inf, one per row. -/
def lsmRowMax (a : FVec F S100000x40 .f32) : FVec F S100000 .f32 :=
  maximumf (broadcastInDim S100000 ![] Facts₀.bcast_S_S100000 (constant S_ .f32 0xFF800000#32))
    (Host.reduce FloatOps.maximumf a (constant S_ .f32 0xFF800000#32) Facts₀.reducesTo_S100000x40_S100000_d1 Facts₀.h_S_)

theorem F1_v2 : after (opsF1 (F := F)) Wv (Proc.devRef .tc main_call3_v2) = lsmRowMax (Wv (Proc.devRef .tc main_v90)) := by
  dsimp only [opsF1]; after_results_simp
  simp only [ofBuf_toBuf]
  rw [ofBuf_v90, toBuf_v2]
  rfl
theorem F2_v5 : after (opsF2 (F := F)) Wv (Proc.devRef .tc main_call3_v5)
    = subf (Wv (Proc.devRef .tc main_v90)) (broadcastInDim S100000x40 ![0, 1] Facts₀.bcast_S100000x1_S100000x40_0_1 (broadcastInDim S100000x1 ![0] Facts₀.bcast_S100000_S100000x1_0 (Wv (Proc.devRef .tc main_call3_v2)))) := by
  dsimp only [opsF2]; after_results_simp; rfl
theorem F3_v8 : after (opsF3 (F := F)) Wv (Proc.devRef .tc main_call3_v8)
    = broadcastInDim S100000x1 ![0] Facts₀.bcast_S100000_S100000x1_0 (Host.reduceAdd (Host.exp (Wv (Proc.devRef .tc main_call3_v5))) (constant S_ .f32 0x00000000#32) Facts₀.reducesTo_S100000x40_S100000_d1 Facts₀.h_S_) := by
  dsimp only [opsF3]; after_results_simp; rfl
theorem F4_v91 : after (opsF4 (F := F)) Wv (Proc.devRef .tc main_v91)
    = subf (Wv (Proc.devRef .tc main_call3_v5)) (broadcastInDim S100000x40 ![0, 1] Facts₀.bcast_S100000x1_S100000x40_0_1 (Host.log (Wv (Proc.devRef .tc main_call3_v8)))) := by
  dsimp only [opsF4]; after_results_simp; rfl
theorem keepF1_v90 : after (opsF1 (F := F)) Wv (Proc.devRef .tc main_v90) = Wv (Proc.devRef .tc main_v90) := by piece_keeps
theorem keepF3_v5 : after (opsF3 (F := F)) Wv (Proc.devRef .tc main_call3_v5) = Wv (Proc.devRef .tc main_call3_v5) := by piece_keeps
/-- The last four pieces together: the log-softmax of the array they start from. -/
theorem F_v91 : after (opsF4 (F := F)) (after opsF3 (after opsF2 (after opsF1 Wv))) (Proc.devRef .tc main_v91) = lsm (Wv (Proc.devRef .tc main_v90)) := by
  rw [F4_v91, keepF3_v5, F3_v8, F2_v5, keepF1_v90, F1_v2]
  rfl

/-! ## What each piece leaves alone -/

theorem keepA_arg3 : after (opsA (F := F)) Wv (Proc.devRef .tc main_arg3) = Wv (Proc.devRef .tc main_arg3) := by piece_keeps
theorem keepA_arg4 : after (opsA (F := F)) Wv (Proc.devRef .tc main_arg4) = Wv (Proc.devRef .tc main_arg4) := by piece_keeps
theorem keepA_arg5 : after (opsA (F := F)) Wv (Proc.devRef .tc main_arg5) = Wv (Proc.devRef .tc main_arg5) := by piece_keeps
theorem keepB_v1 : after (opsB (F := F)) Wv (Proc.devRef .tc main_v1) = Wv (Proc.devRef .tc main_v1) := by piece_keeps
theorem keepB_v3 : after (opsB (F := F)) Wv (Proc.devRef .tc main_v3) = Wv (Proc.devRef .tc main_v3) := by piece_keeps
theorem keepB_arg4 : after (opsB (F := F)) Wv (Proc.devRef .tc main_arg4) = Wv (Proc.devRef .tc main_arg4) := by piece_keeps
theorem keepB_arg5 : after (opsB (F := F)) Wv (Proc.devRef .tc main_arg5) = Wv (Proc.devRef .tc main_arg5) := by piece_keeps
theorem keepC_v1 : after (opsC (F := F)) Wv (Proc.devRef .tc main_v1) = Wv (Proc.devRef .tc main_v1) := by piece_keeps
theorem keepC_v3 : after (opsC (F := F)) Wv (Proc.devRef .tc main_v3) = Wv (Proc.devRef .tc main_v3) := by piece_keeps
theorem keepC_arg5 : after (opsC (F := F)) Wv (Proc.devRef .tc main_arg5) = Wv (Proc.devRef .tc main_arg5) := by piece_keeps
theorem keepD_v48 : after (opsD (F := F)) Wv (Proc.devRef .tc main_v48) = Wv (Proc.devRef .tc main_v48) := by piece_keeps
theorem keepD_arg5 : after (opsD (F := F)) Wv (Proc.devRef .tc main_arg5) = Wv (Proc.devRef .tc main_arg5) := by piece_keeps

end Pieces

/-! ## The whole list -/

variable (V : Valuation τ sig (Elt F))

/-- The result buffer after all 134 operations: `gcn` of the arguments' contents. -/
theorem ref_v91 : after (ops (F := F)) V (Proc.devRef .tc main_v91)
    = gcn (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq]
  simp only [after_append]
  rw [F_v91, E_v90, keepD_v48, D_v50, D_v51, D_v59, keepD_arg5, C_v48, keepC_v1, keepC_v3, keepC_arg5,
    B_v46, keepB_arg4, keepB_v1, keepB_v3, keepB_arg5, A_v4, A_v6, A_v7, A_v15, keepA_arg3, keepA_arg4, A_v1, A_v3, keepA_arg5,
    rowFull_eq, colFull_eq]
  rfl

theorem ref_arg0 : after (ops (F := F)) V (Proc.devRef .tc main_arg0) = V (Proc.devRef .tc main_arg0) := by piece_keeps
theorem ref_arg1 : after (ops (F := F)) V (Proc.devRef .tc main_arg1) = V (Proc.devRef .tc main_arg1) := by piece_keeps
theorem ref_arg2 : after (ops (F := F)) V (Proc.devRef .tc main_arg2) = V (Proc.devRef .tc main_arg2) := by piece_keeps
theorem ref_arg3 : after (ops (F := F)) V (Proc.devRef .tc main_arg3) = V (Proc.devRef .tc main_arg3) := by piece_keeps
theorem ref_arg4 : after (ops (F := F)) V (Proc.devRef .tc main_arg4) = V (Proc.devRef .tc main_arg4) := by piece_keeps
theorem ref_arg5 : after (ops (F := F)) V (Proc.devRef .tc main_arg5) = V (Proc.devRef .tc main_arg5) := by piece_keeps

end Cert.Gcn

end
-- ==== Proof.RefValue.lean ====
/-
  The reference program's run, read: every weakly fair execution of its @main terminates with the result buffer at `gcn` of
  the arguments' launch contents and the arguments unchanged — the run of a straight line of host operations, its final
  buffer contents the fold of the operations over the launch contents, read by `RefStages.lean`.
-/
import proofs.«156913_j83777632075847_1_alg».proof.Proof.RefStages

noncomputable section

namespace Cert.Gcn

open Idealize.ShloMosaic Idealize.ShloMosaic.TcCoe Idealize.ShloMosaic.StableHlo Idealize.SL.Sem
open Cert.ReferenceIdeal Cert.ReferenceIdeal.Gen Cert.ReferenceIdeal.ValueP

variable {F : FTy → Type} [FloatOps F]

set_option maxRecDepth 8192 in
set_option maxHeartbeats 4000000 in
/-- On every device, for any float values, from any memory with zero counters: the reference's @main terminates with
    its result at `gcn` of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
          = gcn (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (ref_v91 (launchContents m c)),
      (h c main_arg0).trans (ref_arg0 (launchContents m c)),
      (h c main_arg1).trans (ref_arg1 (launchContents m c)),
      (h c main_arg2).trans (ref_arg2 (launchContents m c)),
      (h c main_arg3).trans (ref_arg3 (launchContents m c)),
      (h c main_arg4).trans (ref_arg4 (launchContents m c)),
      (h c main_arg5).trans (ref_arg5 (launchContents m c))⟩)
    (run_seq scopedRefs_eq scopedSems_eq defs main (fun _ => ops) main_eq (fun _ => ops_sub) m ρ)

end Cert.Gcn

end
-- ==== Proof.lean ====
/-
  The certificate of a two-layer graph convolution with a row-wise log-softmax: the kernel program (three pallas_calls —
  x·W1 in row blocks, relu(·)·W2 in row blocks, the log-softmax in row blocks — among host stretches that gather, scale and
  scatter-add along the edge list) against the all-host reference.

  At the ideal values both programs end with `gcn` of their six arguments (`Proof/Chain.lean`):
    lsm (aggB (relu(aggA (x·W1)) · W2)),
  the aggregations the same host operations on both sides, applied to equal values. The kernel's three regions each leave ONE
  whole-array function of their input arrays (`Proof/Region0.lean` … `Region2.lean`): a row block of a product depends on the
  same row block of the left operand and the whole right operand, a change of float format is the identity, and a row's
  log-softmax depends on that row alone, so the blocks tile the array; the kernel's in-block sums and maximum are the host's
  (`Proof/SpecMm.lean`, `Proof/SpecLsm.lean`). The result array is read back through the run's boundaries
  (`Proof/KernelValue.lean`) and the reference's through its operation list (`Proof/RefStages.lean`, `Proof/RefValue.lean`).
  No law of the extended reals beyond the equality of the sums is used, so the precondition is never opened.
  The ideal pass rewrote nothing: `preserves` is `True`. The frames of the two kernel programs are the generated ones; the
  reference's is its run with the result dropped.
-/
import proofs.«156913_j83777632075847_1_alg».proof.Defs
import proofs.«156913_j83777632075847_1_alg».proof.Proof.Gen.Kernel
import proofs.«156913_j83777632075847_1_alg».proof.Proof.Gen.Kernel.Skeleton
import proofs.«156913_j83777632075847_1_alg».proof.Proof.Gen.Kernel.Launch
import proofs.«156913_j83777632075847_1_alg».proof.Proof.Gen.Kernel.Points
import proofs.«156913_j83777632075847_1_alg».proof.Proof.Gen.Kernel.Frame
import proofs.«156913_j83777632075847_1_alg».proof.Proof.Gen.KernelIdeal
import proofs.«156913_j83777632075847_1_alg».proof.Proof.Gen.KernelIdeal.Skeleton
import proofs.«156913_j83777632075847_1_alg».proof.Proof.Gen.KernelIdeal.Launch
import proofs.«156913_j83777632075847_1_alg».proof.Proof.Gen.KernelIdeal.Points
import proofs.«156913_j83777632075847_1_alg».proof.Proof.Gen.KernelIdeal.Frame
import proofs.«156913_j83777632075847_1_alg».proof.Proof.Gen.ReferenceIdeal
import proofs.«156913_j83777632075847_1_alg».proof.Proof.Gen.Pre_finite_inputs
import proofs.«156913_j83777632075847_1_alg».proof.Proof.KernelRun
import proofs.«156913_j83777632075847_1_alg».proof.Proof.KernelValue
import proofs.«156913_j83777632075847_1_alg».proof.Proof.RefValue
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.Gcn.ref_run (F := Ideal) m ρ)

/-- Both programs, from memories agreeing on the arguments, end with `gcn` of the arguments in their result arrays. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Gcn.W7_v79 m ρ c), (h c).2⟩)
      (Cert.KernelIdeal.GenP.run_named m ρ)
  · refine (θ_run Cert.ReferenceIdeal.defs _ _).mono (fun _ h c => ⟨(h c).1.trans ?_, (h c).2⟩)
      (Cert.Gcn.ref_run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
